-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S1600000 32) (main_arg3 : FVec F S128x128 .f32) (main_arg4 : FVec F S128 .f32) (main_arg5 : FVec F S128x3 .f32) (main_arg6 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg5
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1700000 : Shape := ⟨1, ![1700000]⟩
abbrev S5000x128 : Shape := ⟨2, ![5000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x3 : Shape := ⟨2, ![100000, 3]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 81
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S100000x128, .f32⟩
  | .hbm, ⟨61, _⟩ => ⟨S100000x3, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x3, .f32⟩
  | .hbm, ⟨71, _⟩ => ⟨S1700000x1, .f32⟩
  | .hbm, ⟨72, _⟩ => ⟨S1700000x3, .f32⟩
  | .hbm, ⟨73, _⟩ => ⟨S1700000x3, .f32⟩
  | .hbm, ⟨74, _⟩ => ⟨S_, .f32⟩
  | .hbm, ⟨75, _⟩ => ⟨S100000x3, .f32⟩
  | .hbm, ⟨76, _⟩ => ⟨S1700000x1, .i32⟩
  | .hbm, ⟨77, _⟩ => ⟨S100000x3, .f32⟩
  | .hbm, ⟨78, _⟩ => ⟨S1x3, .f32⟩
  | .hbm, ⟨79, _⟩ => ⟨S100000x3, .f32⟩
  | .hbm, ⟨80, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x3, .f32⟩
  | .local _ .vmem, ⟨13, _⟩ => ⟨S5000x3, .f32⟩
  | .local _ .vmem, ⟨14, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x3.size a ≤ S128x3.size a
  hwx2_1 : ∀ i : grid2.Coords, EltTy.bits .f32 = 32 ∨ (Rect.block (s := S128x3) S128x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S100000x3.size a
  hwx2_2 : ∀ i : grid2.Coords, EltTy.bits .f32 = 32 ∨ (Rect.block (s := S100000x3) S5000x3.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x3, .f32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x3, .f32⟩
  | .hbm, ⟨105, _⟩ => ⟨S1700000x1, .f32⟩
  | .hbm, ⟨106, _⟩ => ⟨S1700000x3, .f32⟩
  | .hbm, ⟨107, _⟩ => ⟨S1700000x3, .f32⟩
  | .hbm, ⟨108, _⟩ => ⟨S_, .f32⟩
  | .hbm, ⟨109, _⟩ => ⟨S100000x3, .f32⟩
  | .hbm, ⟨110, _⟩ => ⟨S1700000x1, .i32⟩
  | .hbm, ⟨111, _⟩ => ⟨S100000x3, .f32⟩
  | .hbm, ⟨112, _⟩ => ⟨S1x3, .f32⟩
  | .hbm, ⟨113, _⟩ => ⟨S100000x3, .f32⟩
  | .hbm, ⟨114, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.GcnSpec.lean ====
/-
  The three dense stages of the two-layer graph convolution, each stated as ONE function of whole arrays, index by
  index, on the extended reals. With X : [100000, 128] the node features, W₁ : [128, 128], b₁ : [128], W₂ : [128, 3]:

    * `dense1 X W₁` at (r, q) is the sum over k < 128 of X[r, k] · W₁[k, q]   (the first layer's product X·W₁);
    * `biasRelu A b₁` at (r, q) is max (A[r, q] + b₁[q]) 0                      (bias along the lanes, negative part cut);
    * `dense2 H W₂` at (r, q) is the sum over k < 128 of H[r, k] · W₂[k, q]   (the second layer's product H·W₂).

  A matrix product tiled by blocks of rows, and the same product taken whole, are both this sum: a row of the
  result depends on that row of the left factor only, and no law of the extended reals beyond reading the sum is used.
-/
import Idealize.ShloMosaic.PureOps.Ideal
import Idealize.ShloMosaic.Lib.ValueIdx

noncomputable section

namespace Cert.Gcn

open Idealize.ShloMosaic Idealize.ShloMosaic.ValueIdx

/-- [100000, 128]: features, hidden activations. -/
abbrev SNx128 : Shape := ⟨2, ![100000, 128]⟩
/-- [128, 128]: the first layer's weights. -/
abbrev S128x128 : Shape := ⟨2, ![128, 128]⟩
/-- [128, 3]: the second layer's weights. -/
abbrev S128x3 : Shape := ⟨2, ![128, 3]⟩
/-- [100000, 3]: the second layer's product. -/
abbrev SNx3 : Shape := ⟨2, ![100000, 3]⟩
/-- [128]: the first layer's bias. -/
abbrev S128 : Shape := ⟨1, ![128]⟩

/-- The first layer's product X·W₁, entry by entry. -/
def dense1 (x : FVec Ideal SNx128 .f32) (w : FVec Ideal S128x128 .f32) : FVec Ideal SNx128 .f32 :=
  fun i => ∑ k : Fin 128, x (ix2 (n0 := 100000) (n1 := 128) ⟨(i 0).val, (i 0).isLt⟩ k)
    * w (ix2 (n0 := 128) (n1 := 128) k ⟨(i 1).val, (i 1).isLt⟩)

theorem dense1_apply (x : FVec Ideal SNx128 .f32) (w : FVec Ideal S128x128 .f32) (r : Fin 100000) (q : Fin 128) :
    dense1 x w (ix2 r q) = ∑ k : Fin 128, x (ix2 r k) * w (ix2 k q) := rfl

/-- The bias added along the lanes, then the negative part cut off. -/
def biasRelu (a : FVec Ideal SNx128 .f32) (b : FVec Ideal S128 .f32) : FVec Ideal SNx128 .f32 :=
  fun i => max (a i + b (ix1 (n := 128) ⟨(i 1).val, (i 1).isLt⟩)) (Ideal.ofBits .f32 0x00000000#32)

theorem biasRelu_apply (a : FVec Ideal SNx128 .f32) (b : FVec Ideal S128 .f32) (r : Fin 100000) (q : Fin 128) :
    biasRelu a b (ix2 r q) = max (a (ix2 r q) + b (ix1 q)) (Ideal.ofBits .f32 0x00000000#32) := rfl

/-- The second layer's product H·W₂, entry by entry. -/
def dense2 (h : FVec Ideal SNx128 .f32) (w : FVec Ideal S128x3 .f32) : FVec Ideal SNx3 .f32 :=
  fun i => ∑ k : Fin 128, h (ix2 (n0 := 100000) (n1 := 128) ⟨(i 0).val, (i 0).isLt⟩ k)
    * w (ix2 (n0 := 128) (n1 := 3) k ⟨(i 1).val, (i 1).isLt⟩)

theorem dense2_apply (h : FVec Ideal SNx128 .f32) (w : FVec Ideal S128x3 .f32) (r : Fin 100000) (q : Fin 3) :
    dense2 h w (ix2 r q) = ∑ k : Fin 128, h (ix2 r k) * w (ix2 k q) := rfl

end Cert.Gcn

end
-- ==== Proof.Dense1.lean ====
/-
  The first layer's product, region by region of rows. The first kernel region walks the 20 blocks of 5000 rows of the
  feature array; at block t it multiplies rows 5000·t … 5000·t + 4999 of X (read at a narrower float format, which on the
  extended reals changes nothing) with the whole of W₁ into a zero accumulator and writes the 5000 × 128 product back to
  the same rows of the result. Entry (p, q) of the block product is the sum over k of X[5000·t + p, k] · W₁[k, q]: entry
  (5000·t + p, q) of `dense1 X W₁`. The 20 blocks tile the 100000 rows, so the array the region leaves is `dense1 X W₁`,
  whatever the arrays X and W₁ are when the region is entered.
-/
import proofs.«136398_j82497731822011_1_alg».proof.Proof.Gen.KernelIdeal.Frame
import proofs.«136398_j82497731822011_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

-- the arrays as the region finds them: any contents
variable (V : (c : Dev nD) → (b : Ref sig .tc) → Buf (Elt Ideal) ((c : Thread nD τ).loc b))

theorem zero_offsets : (![0, 0] : Fin 2 → Nat) = fun _ => 0 := funext fun a => by fin_cases a <;> rfl

/-! ## The block product at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of what the body stores: the sum over k of the left block's (p, k) times the right block's (k, q). -/
theorem product_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [truncf_apply, truncf_apply, el, er]

/-! ## The blocks at a point -/

/-- The printed index maps over the grid: the feature rows and the result rows move with the point, the weights stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt (N_0 : cfg0.N = 20)

/-- Row `p` of block `t` is row `5000·t + p` of the array. -/
abbrev rowOf (t : Fin cfg0.N) (p : Fin 5000) : Fin 100000 := ⟨5000 * t.val + p.val, by have := point_lt t; have := p.isLt; omega⟩

/-- The left block at point `t`: rows 5000·t … of the feature array. -/
theorem left_block_apply (c : Dev nD) (t : Fin cfg0.N) (p : Fin 5000) (k : Fin 128) :
    (iblk0 V c 0 t : Vec Ideal S5000x128 .f32) (ix2 p k) = (V c main_arg0 : S100000x128.Idx → Elt Ideal .f32) (ix2 (rowOf t p) k) := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The right block at every point: the whole weight array. -/
theorem right_block_apply (c : Dev nD) (t : Fin cfg0.N) (k : Fin 128) (q : Fin 128) :
    (iblk0 V c 1 t : Vec Ideal S128x128 .f32) (ix2 k q) = (V c main_arg3 : S128x128.Idx → Elt Ideal .f32) (ix2 k q) := by
  obtain ⟨-, -, e2, e3, -, -⟩ := index_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Where entry (p, q) of the result block lies in the result array. -/
theorem out_emb (t : Fin cfg0.N) (p : Fin 5000) (q : Fin 128) :
    ((cfg0.win 2).blk t).view.emb (ix2 p q) = (ix2 (rowOf t p) q : S100000x128.Idx) := by
  obtain ⟨-, -, -, -, e4, e5⟩ := index_facts t
  funext a
  apply Fin.ext
  match a with
  | ⟨0, _⟩ => show win0_2.index t (0 : Fin 2) * 5000 + 1 * p.val = 5000 * t.val + p.val; rw [e4]; omega
  | ⟨1, _⟩ => show win0_2.index t (1 : Fin 2) * 128 + 1 * q.val = q.val; rw [e5]; omega

/-! ## What a point writes back, and the array the region leaves -/

/-- What point `t` writes back is block `t` of the product of the arrays as the region finds them. -/
theorem flushed_eq (c : Dev nD) (t : Fin cfg0.N) :
    (dat0 V c).flushed 2 t = ((cfg0.win 2).blk t).view.read (Elt Ideal) (dense1 (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  show (k0_pay1 (iblk0 V c 0 t) (iblk0 V c 1 t) : Vec Ideal S5000x128 .f32) (ix2 p q)
    = dense1 (V c main_arg0) (V c main_arg3) (((cfg0.win 2).blk t).view.emb (ix2 p q))
  refine (product_apply (iblk0 V c 0 t) (iblk0 V c 1 t) p q).trans ?_
  rw [out_emb, dense1_apply]
  refine Finset.sum_congr rfl fun k _ => ?_
  rw [left_block_apply V c t p k, right_block_apply V c t k q]

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- Every row lies in the block of the point `row / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by rw [show cfg0.N = 20 from N_0]; omega
  refine ⟨⟨(i 0).val / 5000, ht⟩, flush0_2 _, ?_⟩
  obtain ⟨-, -, -, -, e4, e5⟩ := index_facts ⟨(i 0).val / 5000, ht⟩
  rw [mem_block]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e5]; omega

/-- THE ARRAY THE REGION LEAVES: the product of the two arrays it was entered with. -/
theorem final (c : Dev nD) : (dat0 V c).arrAt 2 cfg0.N = dense1 (V c main_arg0) (V c main_arg3) :=
  (dat0 V c).arrAt_eq_of_cover 2 (dense1 (V c main_arg0) (V c main_arg3)) (fun t _ => flushed_eq V c t) cover

end Cert.KernelIdeal.Dense1

end
-- ==== Proof.BiasRelu.lean ====
/-
  The bias and the cut at zero, block by block of rows. The second kernel region walks the 20 blocks of 5000 rows of the
  aggregated array A; at block t it adds the bias vector b₁, laid along the lanes of every row, to rows
  5000·t … 5000·t + 4999 of A, takes the maximum with zero, and writes the block back to the same rows of the result. Entry
  (p, q) of the block is max (A[5000·t + p, q] + b₁[q]) 0: entry (5000·t + p, q) of `biasRelu A b₁`. The 20 blocks tile the
  100000 rows, so the array the region leaves is `biasRelu A b₁`, whatever A and b₁ are when the region is entered.
-/
import proofs.«136398_j82497731822011_1_alg».proof.Proof.Gen.KernelIdeal.Frame
import proofs.«136398_j82497731822011_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Cert.Gcn
open Idealize.ShloMosaic Idealize.ShloMosaic.TcCoe Idealize.ShloMosaic.ValueIdx Idealize.SL.Sem
open Idealize.ShloMosaic.Pipeline (Dat)

-- the arrays as the region finds them: any contents
variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-! ## The body's store at an entry -/

/-- Entry (p, q) of what the body stores: the block's entry plus the bias at lane q, cut at zero. -/
theorem store_apply (x0 : Vec Ideal S5000x128 .f32) (x1 : Vec Ideal S128 .f32) (p : Fin 5000) (q : Fin 128) :
    k1_pay1 x0 x1 (ix2 p q) = max (x0 (ix2 p q) + x1 (ix1 q)) (Ideal.ofBits .f32 0x00000000#32) := by
  unfold k1_pay1
  rw [maximumf_apply, addf_apply, broadcast_apply, shapeCast_self, broadcastTo_1b_ab_apply, shapeCast_a_1a_apply]
  rfl

/-! ## The blocks at a point -/

/-- The printed index maps over the grid: the aggregated rows and the result rows move with the point, the bias stays. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem point_lt (t : Fin cfg1.N) : t.val < 20 := lt_of_lt_of_eq t.isLt (N_1 : cfg1.N = 20)

/-- Row `p` of block `t` is row `5000·t + p` of the array. -/
abbrev rowOf (t : Fin cfg1.N) (p : Fin 5000) : Fin 100000 := ⟨5000 * t.val + p.val, by have := point_lt t; have := p.isLt; omega⟩

/-- The input block at point `t`: rows 5000·t … of the aggregated array. -/
theorem in_block_apply (c : Dev nD) (t : Fin cfg1.N) (p : Fin 5000) (q : Fin 128) :
    (iblk1 V c 0 t : Vec Ideal S5000x128 .f32) (ix2 p q) = (V c main_v42 : S100000x128.Idx → Elt Ideal .f32) (ix2 (rowOf t p) q) := by
  obtain ⟨e0, e1, -, -, -⟩ := index_facts t
  unfold iblk1
  rw [View.read_apply]
  show V c main_v42 _ = V c main_v42 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The bias block at every point: the whole bias vector. -/
theorem bias_block_apply (c : Dev nD) (t : Fin cfg1.N) (q : Fin 128) :
    (iblk1 V c 1 t : Vec Ideal S128 .f32) (ix1 q) = (V c main_arg4 : S128.Idx → Elt Ideal .f32) (ix1 q) := by
  obtain ⟨-, -, e2, -, -⟩ := index_facts t
  unfold iblk1
  rw [View.read_apply]
  show V c main_arg4 _ = V c main_arg4 _
  congr 1
  funext a
  apply Fin.ext
  match a with
  | ⟨0, _⟩ => show win1_1.index t (0 : Fin 1) * 128 + 1 * q.val = q.val; rw [e2]; omega

/-- Where entry (p, q) of the result block lies in the result array. -/
theorem out_emb (t : Fin cfg1.N) (p : Fin 5000) (q : Fin 128) :
    ((cfg1.win 2).blk t).view.emb (ix2 p q) = (ix2 (rowOf t p) q : S100000x128.Idx) := by
  obtain ⟨-, -, -, e3, e4⟩ := index_facts t
  funext a
  apply Fin.ext
  match a with
  | ⟨0, _⟩ => show win1_2.index t (0 : Fin 2) * 5000 + 1 * p.val = 5000 * t.val + p.val; rw [e3]; omega
  | ⟨1, _⟩ => show win1_2.index t (1 : Fin 2) * 128 + 1 * q.val = q.val; rw [e4]; omega

/-! ## What a point writes back, and the array the region leaves -/

/-- What point `t` writes back is block `t` of the biased, cut array. -/
theorem flushed_eq (c : Dev nD) (t : Fin cfg1.N) :
    (dat1 V c).flushed 2 t = ((cfg1.win 2).blk t).view.read (Elt Ideal) (biasRelu (V c main_v42) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128) zero_offset]
  funext j
  obtain ⟨p, q, rfl⟩ : ∃ (p : Fin 5000) (q : Fin 128), j = ix2 p q := ⟨j 0, j 1, eq_ix2 j⟩
  show (k1_pay1 (iblk1 V c 0 t) (iblk1 V c 1 t) : Vec Ideal S5000x128 .f32) (ix2 p q)
    = biasRelu (V c main_v42) (V c main_arg4) (((cfg1.win 2).blk t).view.emb (ix2 p q))
  refine (store_apply (iblk1 V c 0 t) (iblk1 V c 1 t) p q).trans ?_
  rw [out_emb, biasRelu_apply, in_block_apply V c t p q, bias_block_apply V c t q]

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v43).slice (win1_2.rect t)).set ↔ _
  rw [View.set_slice_whole, Rect.mem_set_unit]
  exact Iff.rfl

/-- Every row lies in the block of the point `row / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := by rw [show cfg1.N = 20 from N_1]; omega
  refine ⟨⟨(i 0).val / 5000, ht⟩, flush1_2 _, ?_⟩
  obtain ⟨-, -, -, e3, e4⟩ := index_facts ⟨(i 0).val / 5000, ht⟩
  rw [mem_block]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; rw [e3]; show (i 0).val / 5000 * 5000 ≤ (i 0).val ∧ (i 0).val < (i 0).val / 5000 * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; rw [e4]; omega

/-- THE ARRAY THE REGION LEAVES: the aggregated array it was entered with, biased and cut at zero. -/
theorem final (c : Dev nD) : (dat1 V c).arrAt 2 cfg1.N = biasRelu (V c main_v42) (V c main_arg4) :=
  (dat1 V c).arrAt_eq_of_cover 2 (biasRelu (V c main_v42) (V c main_arg4)) (fun t _ => flushed_eq V c t) cover

end Cert.KernelIdeal.BiasRelu

end
-- ==== Proof.Dense2.lean ====
/-
  The second layer's product, block by block of rows. The third kernel region walks the 20 blocks of 5000 rows of the
  hidden array H; at block t it multiplies rows 5000·t … 5000·t + 4999 of H (read at a narrower float format, which on the
  extended reals changes nothing) with the whole of W₂ into a zero accumulator and writes the 5000 × 3 product back to the
  same rows of the result. Entry (p, q) of the block product is the sum over k of H[5000·t + p, k] · W₂[k, q]: entry
  (5000·t + p, q) of `dense2 H W₂`. The 20 blocks tile the 100000 rows, so the array the region leaves is `dense2 H W₂`,
  whatever the arrays H and W₂ are when the region is entered.
-/
import proofs.«136398_j82497731822011_1_alg».proof.Proof.Gen.KernelIdeal.Frame
import proofs.«136398_j82497731822011_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

-- the arrays as the region finds them: any contents
variable (V : (c : Dev nD) → (b : Ref sig .tc) → Buf (Elt Ideal) ((c : Thread nD τ).loc b))

theorem zero_offsets : (![0, 0] : Fin 2 → Nat) = fun _ => 0 := funext fun a => by fin_cases a <;> rfl

/-! ## The block product at an entry -/

theorem lhs_axis0 (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs_axis1 (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
theorem rhs_axis0 (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
theorem rhs_axis1 (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- Entry (p, q) of what the body stores: the sum over k of the left block's (p, k) times the right block's (k, q). -/
theorem product_apply (x0 : Vec Ideal S5000x128 .f32) (x1 : Vec Ideal S128x3 .f32) (p : Fin 5000) (q : Fin 3) :
    k2_pay1 x0 x1 (ix2 p q) = ∑ k : Fin 128, x0 (ix2 p k) * x1 (ix2 k q) := by
  unfold k2_pay1
  simp only [matmul]
  rw [Ideal.matmul_constant_zero_apply, ← Equiv.sum_comp (contrEquiv1 dot_S5000x128_S128x3_S5000x3_1_0_0_1_n_n 128 rfl rfl).symm]
  refine Finset.sum_congr rfl fun k _ => ?_
  have hk := contrEquiv1_symm_val dot_S5000x128_S128x3_S5000x3_1_0_0_1_n_n 128 rfl rfl k
  have el : dot_S5000x128_S128x3_S5000x3_1_0_0_1_n_n.lhsIdx (ix2 p q) ((contrEquiv1 dot_S5000x128_S128x3_S5000x3_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x3_S5000x3_1_0_0_1_n_n.rhsIdx (ix2 p q) ((contrEquiv1 dot_S5000x128_S128x3_S5000x3_1_0_0_1_n_n 128 rfl rfl).symm k) = ix2 k q := funext fun a => Fin.ext (by
    match a with
    | ⟨0, _⟩ => exact (rhs_axis0 _ _).trans hk
    | ⟨1, _⟩ => exact rhs_axis1 _ _)
  rw [truncf_apply, truncf_apply, shapeCast_self, el, er]

/-! ## The blocks at a point -/

/-- The printed index maps over the grid: the hidden rows and the result rows move with the point, the weights stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 20 := lt_of_lt_of_eq t.isLt (N_2 : cfg2.N = 20)

/-- Row `p` of block `t` is row `5000·t + p` of the array. -/
abbrev rowOf (t : Fin cfg2.N) (p : Fin 5000) : Fin 100000 := ⟨5000 * t.val + p.val, by have := point_lt t; have := p.isLt; omega⟩

/-- The left block at point `t`: rows 5000·t … of the hidden array. -/
theorem left_block_apply (c : Dev nD) (t : Fin cfg2.N) (p : Fin 5000) (k : Fin 128) :
    (iblk2 V c 0 t : Vec Ideal S5000x128 .f32) (ix2 p k) = (V c main_v43 : S100000x128.Idx → Elt Ideal .f32) (ix2 (rowOf t p) k) := by
  obtain ⟨e0, e1, -, -, -, -⟩ := index_facts t
  unfold iblk2
  rw [View.read_apply]
  show V c main_v43 _ = V c main_v43 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The right block at every point: the whole weight array. -/
theorem right_block_apply (c : Dev nD) (t : Fin cfg2.N) (k : Fin 128) (q : Fin 3) :
    (iblk2 V c 1 t : Vec Ideal S128x3 .f32) (ix2 k q) = (V c main_arg5 : S128x3.Idx → Elt Ideal .f32) (ix2 k q) := by
  obtain ⟨-, -, e2, e3, -, -⟩ := index_facts t
  unfold iblk2
  rw [View.read_apply]
  show V c main_arg5 _ = V c main_arg5 _
  congr 1
  funext a
  apply Fin.ext
  match a with
  | ⟨0, _⟩ => show win2_1.index t (0 : Fin 2) * 128 + 1 * k.val = k.val; rw [e2]; omega
  | ⟨1, _⟩ => show win2_1.index t (1 : Fin 2) * 3 + 1 * q.val = q.val; rw [e3]; omega

/-- Where entry (p, q) of the result block lies in the result array. -/
theorem out_emb (t : Fin cfg2.N) (p : Fin 5000) (q : Fin 3) :
    ((cfg2.win 2).blk t).view.emb (ix2 p q) = (ix2 (rowOf t p) q : S100000x3.Idx) := by
  obtain ⟨-, -, -, -, e4, e5⟩ := index_facts t
  funext a
  apply Fin.ext
  match a with
  | ⟨0, _⟩ => show win2_2.index t (0 : Fin 2) * 5000 + 1 * p.val = 5000 * t.val + p.val; rw [e4]; omega
  | ⟨1, _⟩ => show win2_2.index t (1 : Fin 2) * 3 + 1 * q.val = q.val; rw [e5]; omega

/-! ## What a point writes back, and the array the region leaves -/

/-- What point `t` writes back is block `t` of the product of the arrays as the region finds them. -/
theorem flushed_eq (c : Dev nD) (t : Fin cfg2.N) :
    (dat2 V c).flushed 2 t = ((cfg2.win 2).blk t).view.read (Elt Ideal) (dense2 (V c main_v43) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x3) zero_offsets]
  funext j
  obtain ⟨p, q, rfl⟩ : ∃ (p : Fin 5000) (q : Fin 3), j = ix2 p q := ⟨j 0, j 1, eq_ix2 j⟩
  show (k2_pay1 (iblk2 V c 0 t) (iblk2 V c 1 t) : Vec Ideal S5000x3 .f32) (ix2 p q)
    = dense2 (V c main_v43) (V c main_arg5) (((cfg2.win 2).blk t).view.emb (ix2 p q))
  refine (product_apply (iblk2 V c 0 t) (iblk2 V c 1 t) p q).trans ?_
  rw [out_emb, dense2_apply]
  refine Finset.sum_congr rfl fun k _ => ?_
  rw [left_block_apply V c t p k, right_block_apply V c t k q]

/-- An index of the result array is in point `t`'s block iff each coordinate is in the block's range on its axis. -/
theorem mem_block (t : Fin cfg2.N) (i : S100000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v44).slice (win2_2.rect t)).set ↔ _
  rw [View.set_slice_whole, Rect.mem_set_unit]
  exact Iff.rfl

/-- Every row lies in the block of the point `row / 5000`. -/
theorem cover (i : S100000x3.Idx) : ∃ t : Fin cfg2.N, (cfg2.win 2).flush t = true ∧ i ∈ ((cfg2.win 2).blk t).view.set := by
  have hi0 : (i 0).val < 100000 := (i 0).isLt
  have hi1 : (i 1).val < 3 := (i 1).isLt
  have ht : (i 0).val / 5000 < cfg2.N := by rw [show cfg2.N = 20 from N_2]; omega
  refine ⟨⟨(i 0).val / 5000, ht⟩, flush2_2 _, ?_⟩
  obtain ⟨-, -, -, -, e4, e5⟩ := index_facts ⟨(i 0).val / 5000, ht⟩
  rw [mem_block]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win2_2.index ⟨(i 0).val / 5000, ht⟩ (1 : Fin 2) * 3 ≤ (i 1).val ∧ (i 1).val < win2_2.index ⟨(i 0).val / 5000, ht⟩ (1 : Fin 2) * 3 + 3; rw [e5]; omega

/-- THE ARRAY THE REGION LEAVES: the product of the two arrays it was entered with. -/
theorem final (c : Dev nD) : (dat2 V c).arrAt 2 cfg2.N = dense2 (V c main_v43) (V c main_arg5) :=
  (dat2 V c).arrAt_eq_of_cover 2 (dense2 (V c main_v43) (V c main_arg5)) (fun t _ => flushed_eq V c t) cover

end Cert.KernelIdeal.Dense2

end
-- ==== Proof.HostChain.lean ====
/-
  The irregular half of a graph-convolution layer, as functions of whole arrays. Both programs compute it on the host
  with the same operations; only the dense stages differ, so these functions are carried through the proof unopened.

  From the edge list E : [2, 1600000] the source and destination vectors of the 1700000 messages are E's two rows, each
  followed by the self loops 0 … 99999 (`sources`, `targets`). A node's degree is the number of messages that arrive at it,
  its weight the inverse square root of max(degree, 1) (`invSqrtDegree`); a message's coefficient is the product of its
  two endpoints' weights (`coefficient`), an index below zero counted from the end (`wrap`). One layer's aggregation
  gathers the rows of a node array at the messages' sources, scales each by its coefficient and adds it up at the
  message's destination (`aggregate128` for 128 lanes, `aggregate3` for 3); the output layer then adds its bias along the
  lanes (`addBias3`).
-/
import proofs.«136398_j82497731822011_1_alg».proof.Proof.Gen.KernelIdeal

noncomputable section

namespace Cert.KernelIdeal.Chain

open Cert.KernelIdeal Cert.KernelIdeal.Gen
open Idealize.ShloMosaic Idealize.SL.Sem

variable {F : FTy → Type} [FloatOps F]

/-- The messages' source nodes: the edge list's first row, then the self loops. -/
def sources (e : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] e slices_S2x1600000_S1x1600000_0_0) shapeCasts_S1x1600000_S1600000)⟩, ⟨S100000, (iotaInDim S100000 32 0)⟩] concatenates_S1600000_S100000_S1700000_d0

/-- The messages' destination nodes: the edge list's second row, then the self loops. -/
def targets (e : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] e slices_S2x1600000_S1x1600000_1_0) shapeCasts_S1x1600000_S1600000)⟩, ⟨S100000, (iotaInDim S100000 32 0)⟩] concatenates_S1600000_S100000_S1700000_d0

/-- A node index below zero counts from the end: 100000 is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- Each node's weight: the inverse square root of the number of messages arriving at it, at least one. -/
def invSqrtDegree (dst : (⟨S1700000, .i32⟩ : BufTy).Contents (Elt F)) : (⟨S100000, .f32⟩ : BufTy).Contents (Elt F) :=
  Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))) (broadcastInDim S100000 ![] bcast_S_S100000 (constant S_ .f32 0x3F800000#32)))

/-- Each message's coefficient: its source's weight times its destination's. -/
def coefficient (src dst : (⟨S1700000, .i32⟩ : BufTy).Contents (Elt F)) : (⟨S1700000, .f32⟩ : BufTy).Contents (Elt F) :=
  mulf (Host.gather gather_S100000_S1700000x1_S1700000_n_0_n_n_0_1_1 (invSqrtDegree dst) (broadcastInDim S1700000x1 ![0] bcast_S1700000_S1700000x1_0 (wrap src)))
    (Host.gather gather_S100000_S1700000x1_S1700000_n_0_n_n_0_1_1 (invSqrtDegree dst) (broadcastInDim S1700000x1 ![0] bcast_S1700000_S1700000x1_0 (wrap dst)))

/-- One layer's aggregation over 128 lanes: rows gathered at the sources, scaled, added up at the destinations. -/
def aggregate128 (xw : (⟨S100000x128, .f32⟩ : BufTy).Contents (Elt F)) (src dst : (⟨S1700000, .i32⟩ : BufTy).Contents (Elt F))
    (coef : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst)
    (mulf (Host.gather gather_S100000x128_S1700000x1_S1700000x128_1_0_n_n_0_1_1128 xw (broadcastInDim S1700000x1 ![0] bcast_S1700000_S1700000x1_0 (wrap src)))
      (broadcastInDim S1700000x128 ![0, 1] bcast_S1700000x1_S1700000x128_0_1 (broadcastInDim S1700000x1 ![0] bcast_S1700000_S1700000x1_0 coef)))

/-- The same aggregation over 3 lanes. -/
def aggregate3 (xw : (⟨S100000x3, .f32⟩ : BufTy).Contents (Elt F)) (src dst : (⟨S1700000, .i32⟩ : BufTy).Contents (Elt F))
    (coef : (⟨S1700000, .f32⟩ : BufTy).Contents (Elt F)) : (⟨S100000x3, .f32⟩ : BufTy).Contents (Elt F) :=
  Host.scatterAdd scatter_S100000x3_S1700000x1_S1700000x3_1_0_0_1 (broadcastInDim S100000x3 ![] bcast_S_S100000x3 (constant S_ .f32 0x00000000#32)) (broadcastInDim S1700000x1 ![0] bcast_S1700000_S1700000x1_0 dst)
    (mulf (Host.gather gather_S100000x3_S1700000x1_S1700000x3_1_0_n_n_0_1_13 xw (broadcastInDim S1700000x1 ![0] bcast_S1700000_S1700000x1_0 (wrap src)))
      (broadcastInDim S1700000x3 ![0, 1] bcast_S1700000x1_S1700000x3_0_1 (broadcastInDim S1700000x1 ![0] bcast_S1700000_S1700000x1_0 coef)))

/-- The output layer's bias, added along the 3 lanes of every row. -/
def addBias3 (a : (⟨S100000x3, .f32⟩ : BufTy).Contents (Elt F)) (b : (⟨S3, .f32⟩ : BufTy).Contents (Elt F)) : (⟨S100000x3, .f32⟩ : BufTy).Contents (Elt F) :=
  addf a (broadcastInDim S100000x3 ![0, 1] bcast_S1x3_S100000x3_0_1 (broadcastInDim S1x3 ![1] bcast_S3_S1x3_1 b))

end Cert.KernelIdeal.Chain

end
-- ==== Proof.GcnResult.lean ====
/-
  The whole two-layer network as ONE function of its six arrays: the features X, the edge list E, and the two layers'
  weights and biases. Each layer multiplies by its weights, aggregates over the messages and adds its bias; between the
  layers the negative part is cut off:

      result = (aggregate (cut (aggregate (X·W₁) + b₁) · W₂)) + b₂ ,

  the dense stages as GcnSpec.lean states them, the aggregation as HostChain.lean does, the messages' coefficients
  computed from the edge list alone.
-/
import proofs.«136398_j82497731822011_1_alg».proof.Proof.HostChain
import proofs.«136398_j82497731822011_1_alg».proof.Proof.GcnSpec

noncomputable section

namespace Cert.KernelIdeal.Chain

open Cert.KernelIdeal Cert.Gcn
open Idealize.ShloMosaic Idealize.SL.Sem

/-- The network's output from its inputs, on the extended reals. -/
def result (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x3, .f32⟩ : BufTy).Contents (Elt Ideal)) (b2 : (⟨S3, .f32⟩ : BufTy).Contents (Elt Ideal)) :
    (⟨S100000x3, .f32⟩ : BufTy).Contents (Elt Ideal) :=
  addBias3 (aggregate3 (dense2 (biasRelu (aggregate128 (dense1 x w1) (sources e) (targets e) (coefficient (sources e) (targets e))) b1) w2)
    (sources e) (targets e) (coefficient (sources e) (targets e))) b2

end Cert.KernelIdeal.Chain

end
-- ==== Proof.KernelValue.lean ====
/-
  What the idealized kernel program leaves in its result array, read back through the program's six stretches. Between
  the launch and the return the arrays change only where a stretch writes: the first host stretch makes the messages'
  sources and targets from the edge list; the first kernel region leaves X·W₁; the second host stretch aggregates it and
  makes the messages' coefficients; the second region adds b₁ and cuts at zero; the third leaves the product with W₂; the
  last host stretch aggregates again, with the coefficients made before, and adds b₂. Every other array a stretch meets is
  as the stretch before left it. Composed, the result array holds `Chain.result` of the six input arrays.
-/
import proofs.«136398_j82497731822011_1_alg».proof.Proof.Gen.KernelIdeal.Frame
import proofs.«136398_j82497731822011_1_alg».proof.Proof.Dense1
import proofs.«136398_j82497731822011_1_alg».proof.Proof.BiasRelu
import proofs.«136398_j82497731822011_1_alg».proof.Proof.Dense2
import proofs.«136398_j82497731822011_1_alg».proof.Proof.GcnResult
import Idealize.ShloMosaic.Lib.StableHlo.Run

set_option maxRecDepth 16384

noncomputable section

namespace Cert.KernelIdeal.Result

open Cert.KernelIdeal Cert.KernelIdeal.Gen Cert.KernelIdeal.Chain Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch: the messages' endpoints -/

theorem src1 (c : Dev nD) : W1 m ρ c (Proc.devRef .tc main_v3) = sources (m ((c : Thread nD τ).loc main_arg1)) := by
  show StableHlo.after hostOps0 (W0 m ρ c) (Proc.devRef .tc main_v3) = _
  after_results_simp <;> rfl
theorem dst1 (c : Dev nD) : W1 m ρ c (Proc.devRef .tc main_v6) = targets (m ((c : Thread nD τ).loc main_arg1)) := by
  show StableHlo.after hostOps0 (W0 m ρ c) (Proc.devRef .tc main_v6) = _
  after_results_simp <;> rfl
theorem x1 (c : Dev nD) : W1 m ρ c (Proc.devRef .tc main_arg0) = m ((c : Thread nD τ).loc main_arg0) := by
  show StableHlo.after hostOps0 (W0 m ρ c) (Proc.devRef .tc main_arg0) = _
  after_results_simp <;> rfl
theorem w1_1 (c : Dev nD) : W1 m ρ c (Proc.devRef .tc main_arg3) = m ((c : Thread nD τ).loc main_arg3) := by
  show StableHlo.after hostOps0 (W0 m ρ c) (Proc.devRef .tc main_arg3) = _
  after_results_simp <;> rfl
theorem b1_1 (c : Dev nD) : W1 m ρ c (Proc.devRef .tc main_arg4) = m ((c : Thread nD τ).loc main_arg4) := by
  show StableHlo.after hostOps0 (W0 m ρ c) (Proc.devRef .tc main_arg4) = _
  after_results_simp <;> rfl
theorem w2_1 (c : Dev nD) : W1 m ρ c (Proc.devRef .tc main_arg5) = m ((c : Thread nD τ).loc main_arg5) := by
  show StableHlo.after hostOps0 (W0 m ρ c) (Proc.devRef .tc main_arg5) = _
  after_results_simp <;> rfl
theorem b2_1 (c : Dev nD) : W1 m ρ c (Proc.devRef .tc main_arg6) = m ((c : Thread nD τ).loc main_arg6) := by
  show StableHlo.after hostOps0 (W0 m ρ c) (Proc.devRef .tc main_arg6) = _
  after_results_simp <;> rfl

/-! ## After the first region: X·W₁ -/

theorem xw2 (c : Dev nD) : W2 m ρ c (Proc.devRef .tc main_v7)
    = dense1 (m ((c : Thread nD τ).loc main_arg0)) (m ((c : Thread nD τ).loc main_arg3)) := by
  refine (W2_arr m ρ c 2).trans ?_
  rw [Dense1.final (V1 m ρ) c]
  show dense1 (W1 m ρ c (Proc.devRef .tc main_arg0)) (W1 m ρ c (Proc.devRef .tc main_arg3)) = _
  rw [x1, w1_1]
theorem src2 (c : Dev nD) : W2 m ρ c (Proc.devRef .tc main_v3) = sources (m ((c : Thread nD τ).loc main_arg1)) :=
  (W2_of_ne m ρ c main_v3 (by decide)).trans (src1 m ρ c)
theorem dst2 (c : Dev nD) : W2 m ρ c (Proc.devRef .tc main_v6) = targets (m ((c : Thread nD τ).loc main_arg1)) :=
  (W2_of_ne m ρ c main_v6 (by decide)).trans (dst1 m ρ c)
theorem b1_2 (c : Dev nD) : W2 m ρ c (Proc.devRef .tc main_arg4) = m ((c : Thread nD τ).loc main_arg4) :=
  (W2_of_ne m ρ c main_arg4 (by decide)).trans (b1_1 m ρ c)
theorem w2_2 (c : Dev nD) : W2 m ρ c (Proc.devRef .tc main_arg5) = m ((c : Thread nD τ).loc main_arg5) :=
  (W2_of_ne m ρ c main_arg5 (by decide)).trans (w2_1 m ρ c)
theorem b2_2 (c : Dev nD) : W2 m ρ c (Proc.devRef .tc main_arg6) = m ((c : Thread nD τ).loc main_arg6) :=
  (W2_of_ne m ρ c main_arg6 (by decide)).trans (b2_1 m ρ c)

/-! ## After the second host stretch: the first aggregation and the coefficients -/

theorem agg3 (c : Dev nD) : W3 m ρ c (Proc.devRef .tc main_v42)
    = aggregate128 (W2 m ρ c (Proc.devRef .tc main_v7)) (W2 m ρ c (Proc.devRef .tc main_v3)) (W2 m ρ c (Proc.devRef .tc main_v6))
        (coefficient (W2 m ρ c (Proc.devRef .tc main_v3)) (W2 m ρ c (Proc.devRef .tc main_v6))) := by
  show StableHlo.after hostOps1 (W2 m ρ c) (Proc.devRef .tc main_v42) = _
  after_results_simp <;> rfl
theorem coef3 (c : Dev nD) : W3 m ρ c (Proc.devRef .tc main_v29)
    = coefficient (W2 m ρ c (Proc.devRef .tc main_v3)) (W2 m ρ c (Proc.devRef .tc main_v6)) := by
  show StableHlo.after hostOps1 (W2 m ρ c) (Proc.devRef .tc main_v29) = _
  after_results_simp <;> rfl
theorem src3 (c : Dev nD) : W3 m ρ c (Proc.devRef .tc main_v3) = W2 m ρ c (Proc.devRef .tc main_v3) := by
  show StableHlo.after hostOps1 (W2 m ρ c) (Proc.devRef .tc main_v3) = _
  after_results_simp <;> rfl
theorem dst3 (c : Dev nD) : W3 m ρ c (Proc.devRef .tc main_v6) = W2 m ρ c (Proc.devRef .tc main_v6) := by
  show StableHlo.after hostOps1 (W2 m ρ c) (Proc.devRef .tc main_v6) = _
  after_results_simp <;> rfl
theorem b1_3 (c : Dev nD) : W3 m ρ c (Proc.devRef .tc main_arg4) = W2 m ρ c (Proc.devRef .tc main_arg4) := by
  show StableHlo.after hostOps1 (W2 m ρ c) (Proc.devRef .tc main_arg4) = _
  after_results_simp <;> rfl
theorem w2_3 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem b2_3 (c : Dev nD) : W3 m ρ c (Proc.devRef .tc main_arg6) = W2 m ρ c (Proc.devRef .tc main_arg6) := by
  show StableHlo.after hostOps1 (W2 m ρ c) (Proc.devRef .tc main_arg6) = _
  after_results_simp <;> rfl

/-! ## After the second region: the bias added, the negative part cut -/

theorem hid4 (c : Dev nD) : W4 m ρ c (Proc.devRef .tc main_v43)
    = biasRelu (W3 m ρ c (Proc.devRef .tc main_v42)) (W3 m ρ c (Proc.devRef .tc main_arg4)) := by
  refine (W4_arr m ρ c 2).trans ?_
  rw [BiasRelu.final (V3 m ρ) c]

/-! ## After the third region: the product with W₂ -/

theorem hw5 (c : Dev nD) : W5 m ρ c (Proc.devRef .tc main_v44)
    = dense2 (W4 m ρ c (Proc.devRef .tc main_v43)) (W4 m ρ c (Proc.devRef .tc main_arg5)) := by
  refine (W5_arr m ρ c 2).trans ?_
  rw [Dense2.final (V4 m ρ) c]

/-! ## After the last host stretch: the second aggregation and the output bias -/

theorem out6 (c : Dev nD) : W6 m ρ c (Proc.devRef .tc main_v60)
    = addBias3 (aggregate3 (W5 m ρ c (Proc.devRef .tc main_v44)) (W5 m ρ c (Proc.devRef .tc main_v3)) (W5 m ρ c (Proc.devRef .tc main_v6))
        (W5 m ρ c (Proc.devRef .tc main_v29))) (W5 m ρ c (Proc.devRef .tc main_arg6)) := by
  show StableHlo.after hostOps3 (W5 m ρ c) (Proc.devRef .tc main_v60) = _
  after_results_simp <;> rfl

/-! ## Composed -/

/-- THE RESULT ARRAY after the run: the network's function of the six input arrays. -/
theorem out_eq (c : Dev nD) : W6 m ρ c (Proc.devRef .tc main_v60)
    = result (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [out6, hw5, hid4, agg3, xw2]
  rw [W5_of_ne m ρ c main_v3 (by decide), W5_of_ne m ρ c main_v6 (by decide), W5_of_ne m ρ c main_v29 (by decide), W5_of_ne m ρ c main_arg6 (by decide)]
  rw [W4_of_ne m ρ c main_v3 (by decide), W4_of_ne m ρ c main_v6 (by decide), W4_of_ne m ρ c main_v29 (by decide), W4_of_ne m ρ c main_arg6 (by decide), W4_of_ne m ρ c main_arg5 (by decide)]
  rw [coef3, src3, dst3, b1_3, w2_3, b2_3, src2, dst2, b1_2, w2_2, b2_2]
  rfl

end Cert.KernelIdeal.Result

end
-- ==== Proof.RefValue.lean ====
/-
  The reference program's result is the same function of the six input arrays. Its composed term applies, in order, the
  host's whole matrix product X·W₁, the aggregation over the messages, the bias b₁ and the cut at zero, the product with W₂,
  the aggregation again (the messages' coefficients computed a second time, from the same edge list) and the bias b₂.
  On the extended reals the host's matrix product is, entry by entry, the sum over the contracted axis (`dense1`, `dense2`),
  and adding a lane-broadcast bias and taking the maximum with a zero array is `biasRelu`; the irregular operations are
  the very ones the kernel program runs, so the composed term is `Chain.result`.
-/
import proofs.«136398_j82497731822011_1_alg».proof.Proof.Gen.ReferenceIdeal.Run
import proofs.«136398_j82497731822011_1_alg».proof.Proof.Gen.ReferenceIdeal.Read
import proofs.«136398_j82497731822011_1_alg».proof.Proof.GcnResult
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

/-! ## The dense stages of the reference, entry by entry -/

/-- The host's product X·W₁ is `dense1`: at (r, q) the sum over k of X[r, k]·W₁[k, q]. -/
theorem product1_eq (x : FVec Ideal S100000x128 .f32) (w : FVec Ideal S128x128 .f32) :
    Host.dotGeneral dot_S100000x128_S128x128_S100000x128_1_0_0_1_n_n none x w = dense1 x w := by
  funext i
  refine (val_main_v7_apply x w i).trans ?_
  show _ = ∑ k : Fin 128, _
  refine Finset.sum_congr rfl fun k _ => ?_
  have el : lidx_main_v7 i k = ix2 (n0 := 100000) (n1 := 128) ⟨(i 0).val, (i 0).isLt⟩ k :=
    funext fun a => match a with | ⟨0, _⟩ => rfl | ⟨1, _⟩ => rfl
  have er : ridx_main_v7 i k = ix2 (n0 := 128) (n1 := 128) k ⟨(i 1).val, (i 1).isLt⟩ :=
    funext fun a => match a with | ⟨0, _⟩ => rfl | ⟨1, _⟩ => rfl
  rw [el, er]

/-- The host's product H·W₂ is `dense2`, whatever the array H. -/
theorem product2_eq (h : FVec Ideal S100000x128 .f32) (w : FVec Ideal S128x3 .f32) :
    Host.dotGeneral dot_S100000x128_S128x3_S100000x3_1_0_0_1_n_n none h w = dense2 h w := by
  funext i
  simp only [Host.dotGeneral]
  rw [Ideal.dotGeneral_apply, ← Equiv.sum_comp (contrEquiv1 dot_S100000x128_S128x3_S100000x3_1_0_0_1_n_n 128 rfl rfl).symm]
  show _ = ∑ k : Fin 128, _
  refine Finset.sum_congr rfl fun k _ => ?_
  have hk := contrEquiv1_symm_val dot_S100000x128_S128x3_S100000x3_1_0_0_1_n_n 128 rfl rfl k
  have el : dot_S100000x128_S128x3_S100000x3_1_0_0_1_n_n.lhsIdx i ((contrEquiv1 dot_S100000x128_S128x3_S100000x3_1_0_0_1_n_n 128 rfl rfl).symm k) = ix2 (n0 := 100000) (n1 := 128) ⟨(i 0).val, (i 0).isLt⟩ k := funext fun a => Fin.ext (by
    match a with
    | ⟨0, _⟩ => exact lhs_main_v47_0 _ _
    | ⟨1, _⟩ => exact (lhs_main_v47_1 _ _).trans hk)
  have er : dot_S100000x128_S128x3_S100000x3_1_0_0_1_n_n.rhsIdx i ((contrEquiv1 dot_S100000x128_S128x3_S100000x3_1_0_0_1_n_n 128 rfl rfl).symm k) = ix2 (n0 := 128) (n1 := 3) k ⟨(i 1).val, (i 1).isLt⟩ := funext fun a => Fin.ext (by
    match a with
    | ⟨0, _⟩ => exact (rhs_main_v47_0 _ _).trans hk
    | ⟨1, _⟩ => exact rhs_main_v47_1 _ _)
  rw [el, er]

/-- The bias laid along the lanes and added, then the maximum with the zero array, is `biasRelu`. -/
theorem bias_cut_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32)) = biasRelu a b := by
  funext i
  show max (a i + val_main_v44 (F := Ideal) b i) (val_main_call0_v0 (F := Ideal) i) = _
  rw [val_main_v44_apply, val_main_v43_apply, val_main_call0_v0_apply, val_main_call0_cst_apply]
  have e : idx_main_v43 (idx_main_v44 i) = ix1 (n := 128) ⟨(i 1).val, (i 1).isLt⟩ :=
    funext fun a => match a with | ⟨0, _⟩ => rfl
  rw [e]
  rfl

/-! ## The composed term -/

/-- The reference's result term is the network's function of the six input arrays. -/
theorem result_eq (m : (ℓ : Loc nD τ sig) → Buf (Elt Ideal) ℓ) (c : Dev nD) :
    res_main_v85 (F := Ideal) m c
      = Cert.KernelIdeal.Chain.result (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) := by
  unfold res_main_v85
  rw [product1_eq, bias_cut_eq, product2_eq]
  rfl

end Cert.ReferenceIdeal.RefValue

end
-- ==== Proof.lean ====
/-
  The certificate of a two-layer graph convolution: a kernel program whose three dense stages (the product with W₁, the
  bias b₁ with the cut at zero, the product with W₂) run as kernel regions over blocks of 5000 rows, against a reference that
  computes them whole on the host. Both programs aggregate over the messages with the same host operations.

  On the extended reals a matrix product taken block of rows by block of rows is the product taken whole (each entry is
  the same sum over the contracted axis), a change of float format is the identity, and the bias with the cut is the same
  entrywise function on both sides; so both programs leave `Chain.result` of the six input arrays (GcnResult.lean) in their
  result arrays. No law of the extended reals beyond reading these sums is needed, and the precondition is not opened.

    * the kernel program's run with its result named: KernelRun.lean; the result read back stretch by stretch:
      KernelValue.lean, over the three regions' arrays (Dense1.lean, BiasRelu.lean, Dense2.lean);
    * the reference's composed term as the same function: RefValue.lean;
    * the frames of the two kernel programs are the generated ones, the reference's frame its generated run;
    * the idealization rewrote nothing, so `preserves` has nothing to state.
-/
import proofs.«136398_j82497731822011_1_alg».proof.Defs
import proofs.«136398_j82497731822011_1_alg».proof.Proof.Gen.Kernel
import proofs.«136398_j82497731822011_1_alg».proof.Proof.Gen.Kernel.Frame
import proofs.«136398_j82497731822011_1_alg».proof.Proof.Gen.KernelIdeal
import proofs.«136398_j82497731822011_1_alg».proof.Proof.Gen.KernelIdeal.Frame
import proofs.«136398_j82497731822011_1_alg».proof.Proof.Gen.ReferenceIdeal
import proofs.«136398_j82497731822011_1_alg».proof.Proof.Gen.Pre_finite_inputs
import proofs.«136398_j82497731822011_1_alg».proof.Proof.Gen.ReferenceIdeal.Run
import proofs.«136398_j82497731822011_1_alg».proof.Proof.Gen.ReferenceIdeal.Read
import proofs.«136398_j82497731822011_1_alg».proof.Proof.KernelRun
import proofs.«136398_j82497731822011_1_alg».proof.Proof.KernelValue
import proofs.«136398_j82497731822011_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with the network's function of the six arrays
    they read in their result arrays. -/
theorem algebraic : Cert.algebraic_KernelIdeal_ReferenceIdeal := by
  intro m ρ m' ρ' _ hagree
  refine ⟨fun c => Cert.KernelIdeal.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Result.out_eq m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c]
    obtain ⟨h0, h1, -, h3, h4, h5, h6⟩ := hagree c
    rw [h0, h1, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
